-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S50000x256 .f32) (main_arg1 : IVec S2x800000 32) (main_arg2 : FVec F S256x256 .f32) (main_arg3 : FVec F S256x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S50000x256 : Shape := ⟨2, ![50000, 256]⟩
abbrev S2x800000 : Shape := ⟨2, ![2, 800000]⟩
abbrev S256x256 : Shape := ⟨2, ![256, 256]⟩
abbrev S2000x256 : Shape := ⟨2, ![2000, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩

abbrev nBuf : Space → Nat
  | .hbm => 24
  | .vmem => 14
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256x256, .f32⟩
  | .hbm, ⟨4, _⟩ => ⟨S50000x256, .f32⟩
  | .hbm, ⟨5, _⟩ => ⟨S50000x256, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x256, .f32⟩
  | .hbm, ⟨19, _⟩ => ⟨S_, .f32⟩
  | .hbm, ⟨20, _⟩ => ⟨S50000x256, .f32⟩
  | .hbm, ⟨21, _⟩ => ⟨S800000x1, .i32⟩
  | .hbm, ⟨22, _⟩ => ⟨S50000x256, .f32⟩
  | .hbm, ⟨23, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S256x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  shapeCasts_S2000x256_S2000x256 : S2000x256.ShapeCasts S2000x256
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S2000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩

abbrev nBuf : Space → Nat
  | .hbm => 27
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256x256, .f32⟩
  | .hbm, ⟨4, _⟩ => ⟨S50000x256, .f32⟩
  | .hbm, ⟨5, _⟩ => ⟨S50000x256, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x256, .f32⟩
  | .hbm, ⟨19, _⟩ => ⟨S_, .f32⟩
  | .hbm, ⟨20, _⟩ => ⟨S50000x256, .f32⟩
  | .hbm, ⟨21, _⟩ => ⟨S800000x1, .i32⟩
  | .hbm, ⟨22, _⟩ => ⟨S50000x256, .f32⟩
  | .hbm, ⟨23, _⟩ => ⟨S50000x256, .f32⟩
  | .hbm, ⟨24, _⟩ => ⟨S_, .f32⟩
  | .hbm, ⟨25, _⟩ => ⟨S50000x256, .f32⟩
  | .hbm, ⟨26, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_cst : Ref sig .tc := ⟨.hbm, 24, rfl⟩
abbrev main_call0_v0 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.Projection.lean ====
/-
  The linear layer of the graph convolution, read at an index.

  For node features X (50000 × 256) and a weight matrix W (256 × 256) the projection X·W holds at (p, q) the value
  Σ_k X(p, k) · W(k, q): a sum of 256 products on the extended reals. The host's matrix product of the whole arrays
  is this function. So is, one block of 2000 rows at a time, a matrix unit's product of the block with W into a zero
  accumulator: the operands' change of format before it is the identity on the extended reals, and the contraction
  runs over all 256 columns at once, so a row of the block meets exactly the terms its row of X meets on the host.
-/
import proofs.«176077_j2259152797811_1_alg».proof.Proof.LibPlainDot

noncomputable section

namespace Cert.GraphConv

open Idealize.ShloMosaic Idealize.ShloMosaic.ValueIdx

/-- Node features, and each projection of them: one row per node. -/
abbrev Nodes : Shape := ⟨2, ![50000, 256]⟩
/-- A weight matrix. -/
abbrev Weights : Shape := ⟨2, ![256, 256]⟩
/-- A block of 2000 consecutive node rows. -/
abbrev Tile : Shape := ⟨2, ![2000, 256]⟩

/-- The projection X·W at (p, q): row p of X against column q of W. -/
def proj (X : Nodes.Idx → EReal) (W : Weights.Idx → EReal) : Nodes.Idx → EReal :=
  fun i => ∑ k : Fin 256, X (ix2 (i 0) k) * W (ix2 k (i 1))

/-- The host's product of the whole arrays is the projection. -/
theorem hostProduct_eq_proj (X : FVec Ideal Nodes .f32) (W : FVec Ideal Weights .f32) :
    Host.dotGeneral (F := Ideal) (DotDims.plain 50000 256 256) none X W = proj X W :=
  funext fun i => Cert.LibPlainDot.dotGeneral_plain none .single X W i

/-- A block's product with W into zero, after the change of format, at (r, q): row r of the block against column q. -/
theorem tileProduct_apply (x : FVec Ideal Tile .f32) (W : FVec Ideal Weights .f32) (h : FTy.bits .bf16 < FTy.bits .f32)
    (j : Tile.Idx) :
    matmul (DotDims.plain 2000 256 256) none (truncf .bf16 x h) (truncf .bf16 W h) (constant Tile .f32 0x00000000#32) j
      = ∑ k : Fin 256, x (ix2 (j 0) k) * W (ix2 k (j 1)) :=
  Cert.LibPlainDot.matmul_plain_zero none (truncf .bf16 x h) (truncf .bf16 W h) j

end Cert.GraphConv

end
-- ==== Proof.FirstRegion.lean ====
/-
  What the first kernel region leaves in its two result arrays.

  The region walks 25 grid points; at point t it reads rows 2000·t … 2000·t + 1999 of the node features and both weight
  matrices whole, and writes back, into the same rows of each result array, the block's product with one of the weight
  matrices. Entry (r, q) of that product is row r of the block against column q of the weights, that is row
  2000·t + r of the features against column q: the projection at (2000·t + r, q). Every row lies in exactly one of the
  25 blocks (row p in block p / 2000), so after the last point each result array holds the projection everywhere.
-/
import proofs.«176077_j2259152797811_1_alg».proof.Proof.Gen.KernelIdeal.Frame
import proofs.«176077_j2259152797811_1_alg».proof.Proof.Projection
import Idealize.ShloMosaic.Lib.Pipeline.Value

set_option maxRecDepth 16384

noncomputable section

namespace Cert.GraphConv.First

open Cert.KernelIdeal Cert.KernelIdeal.Gen
open Idealize.ShloMosaic Idealize.ShloMosaic.TcCoe Idealize.SL.Sem Idealize.ShloMosaic.ValueIdx
open Idealize.ShloMosaic.Pipeline (Dat)
open Cert.GraphConv

-- the buffer contents the region is entered from
variable (V : (c : Dev nD) → (b : Ref sig .tc) → Buf (Elt Ideal) ((c : Thread nD τ).loc b))

theorem hz : (![0, 0] : Fin 2 → Nat) = fun _ => 0 := funext fun a => by fin_cases a <;> rfl

/-- The printed contraction is the plain one: rows × shared axis times shared axis × columns. -/
theorem dims_plain : dot_S2000x256_S256x256_S2000x256_1_0_0_1_n_n = DotDims.plain 2000 256 256 := rfl

/-- What the body stores for the first result, at (r, q): row r of the feature block against column q of the weights. -/
theorem stored0_apply (x : Vec Ideal S2000x256 .f32) (w : Vec Ideal S256x256 .f32) (j : S2000x256.Idx) :
    k0_pay2 (F := Ideal) x w j = ∑ k : Fin 256, x (ix2 (j 0) k) * w (ix2 k (j 1)) := by
  unfold k0_pay2 k0_pay1
  rw [dims_plain]
  exact tileProduct_apply x w bitsLt_bf16_f32 j

/-- The same for the second result. -/
theorem stored1_apply (x : Vec Ideal S2000x256 .f32) (w : Vec Ideal S256x256 .f32) (j : S2000x256.Idx) :
    k0_pay3 (F := Ideal) x w j = ∑ k : Fin 256, x (ix2 (j 0) k) * w (ix2 k (j 1)) := by
  unfold k0_pay3 k0_pay1
  rw [dims_plain]
  exact tileProduct_apply x w bitsLt_bf16_f32 j

/-- The block indices, decided over the grid: the features and both results move one block of rows per point, the
    weights stay at their only block. -/
theorem blockIdx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row r, column k of the feature block at point t is row 2000·t + r, column k of the features. -/
theorem featureBlock_apply (c : Dev nD) (t : Fin cfg0.N) (r : Fin 2000) (k : Fin 256) (i : S50000x256.Idx)
    (hi0 : (i 0).val = t.val * 2000 + r.val) (hi1 : (i 1).val = k.val) :
    (iblk0 V c 0 t : Vec Ideal S2000x256 .f32) (ix2 r k) = (V c main_arg0 : S50000x256.Idx → EReal) i := by
  obtain ⟨e00, e01, -⟩ := blockIdx t
  show (V c main_arg0 : S50000x256.Idx → EReal) (((cfg0.win 0).blk t).view.emb (ix2 r k)) = _
  refine congrArg (V c main_arg0 : S50000x256.Idx → EReal) ?_
  funext a
  apply Fin.ext
  match a with
  | ⟨0, _⟩ => show win0_0.index t (0 : Fin 2) * 2000 + 1 * r.val = (i 0).val; omega
  | ⟨1, _⟩ => show win0_0.index t (1 : Fin 2) * 256 + 1 * k.val = (i 1).val; omega

/-- The first weight block at any point is the whole first weight matrix. -/
theorem weightBlock0_apply (c : Dev nD) (t : Fin cfg0.N) (y : S256x256.Idx) :
    (iblk0 V c 1 t : Vec Ideal S256x256 .f32) y = (V c main_arg2 : S256x256.Idx → EReal) y := by
  obtain ⟨-, -, e10, e11, -⟩ := blockIdx t
  show (V c main_arg2 : S256x256.Idx → EReal) (((cfg0.win 1).blk t).view.emb y) = _
  refine congrArg (V c main_arg2 : S256x256.Idx → EReal) ?_
  funext a
  apply Fin.ext
  match a with
  | ⟨0, _⟩ => show win0_1.index t (0 : Fin 2) * 256 + 1 * (y 0).val = (y 0).val; omega
  | ⟨1, _⟩ => show win0_1.index t (1 : Fin 2) * 256 + 1 * (y 1).val = (y 1).val; omega

/-- The second weight block at any point is the whole second weight matrix. -/
theorem weightBlock1_apply (c : Dev nD) (t : Fin cfg0.N) (y : S256x256.Idx) :
    (iblk0 V c 2 t : Vec Ideal S256x256 .f32) y = (V c main_arg3 : S256x256.Idx → EReal) y := by
  obtain ⟨-, -, -, -, e20, e21, -⟩ := blockIdx t
  show (V c main_arg3 : S256x256.Idx → EReal) (((cfg0.win 2).blk t).view.emb y) = _
  refine congrArg (V c main_arg3 : S256x256.Idx → EReal) ?_
  funext a
  apply Fin.ext
  match a with
  | ⟨0, _⟩ => show win0_2.index t (0 : Fin 2) * 256 + 1 * (y 0).val = (y 0).val; omega
  | ⟨1, _⟩ => show win0_2.index t (1 : Fin 2) * 256 + 1 * (y 1).val = (y 1).val; omega

/-- What point t writes back into the first result array is block t of the projection by the first weights. -/
theorem written0 (c : Dev nD) (t : Fin cfg0.N) :
    (dat0 V c).flushed 3 t = ((cfg0.win 3).blk t).view.read (Elt Ideal) (proj (V c main_arg0) (V c main_arg2)) := by
  show (cfg0.win 3).cut (grid0.coords t) ((dat0 V c).after 3 t) = _
  rw [after0_3]
  unfold out0_3
  rw [View.canon_unit_zero hz]
  simp only [View.ld_unit_zero (S := S2000x256) hz, View.ld_unit_zero (S := S256x256) hz]
  obtain ⟨-, -, -, -, -, -, e30, e31, -⟩ := blockIdx t
  funext j
  show k0_pay2 (F := Ideal) (iblk0 V c 0 t) (iblk0 V c 1 t) j
    = proj (V c main_arg0) (V c main_arg2) (((cfg0.win 3).blk t).view.emb j)
  rw [stored0_apply]
  unfold proj
  refine Finset.sum_congr rfl fun k _ => ?_
  refine congrArg₂ (· * ·) ?_ ?_
  · refine featureBlock_apply V c t (j 0) k _ ?_ ?_
    · show win0_3.index t (0 : Fin 2) * 2000 + 1 * (j 0).val = t.val * 2000 + (j 0).val; omega
    · rfl
  · refine (weightBlock0_apply V c t _).trans ?_
    refine congrArg (V c main_arg2 : S256x256.Idx → EReal) ?_
    funext a
    apply Fin.ext
    match a with
    | ⟨0, _⟩ => rfl
    | ⟨1, _⟩ => show (j 1).val = win0_3.index t (1 : Fin 2) * 256 + 1 * (j 1).val; omega

/-- What point t writes back into the second result array is block t of the projection by the second weights. -/
theorem written1 (c : Dev nD) (t : Fin cfg0.N) :
    (dat0 V c).flushed 4 t = ((cfg0.win 4).blk t).view.read (Elt Ideal) (proj (V c main_arg0) (V c main_arg3)) := by
  show (cfg0.win 4).cut (grid0.coords t) ((dat0 V c).after 4 t) = _
  rw [after0_4]
  unfold out0_4
  rw [View.canon_unit_zero hz]
  simp only [View.ld_unit_zero (S := S2000x256) hz, View.ld_unit_zero (S := S256x256) hz]
  obtain ⟨-, -, -, -, -, -, -, -, e40, e41⟩ := blockIdx t
  funext j
  show k0_pay3 (F := Ideal) (iblk0 V c 0 t) (iblk0 V c 2 t) j
    = proj (V c main_arg0) (V c main_arg3) (((cfg0.win 4).blk t).view.emb j)
  rw [stored1_apply]
  unfold proj
  refine Finset.sum_congr rfl fun k _ => ?_
  refine congrArg₂ (· * ·) ?_ ?_
  · refine featureBlock_apply V c t (j 0) k _ ?_ ?_
    · show win0_4.index t (0 : Fin 2) * 2000 + 1 * (j 0).val = t.val * 2000 + (j 0).val; omega
    · rfl
  · refine (weightBlock1_apply V c t _).trans ?_
    refine congrArg (V c main_arg3 : S256x256.Idx → EReal) ?_
    funext a
    apply Fin.ext
    match a with
    | ⟨0, _⟩ => rfl
    | ⟨1, _⟩ => show (j 1).val = win0_4.index t (1 : Fin 2) * 256 + 1 * (j 1).val; omega

/-- Every row of a result array lies in the block of the point  row / 2000. -/
theorem rowCovered (i : S50000x256.Idx) : ∃ t : Fin cfg0.N, t.val = (i 0).val / 2000 :=
  ⟨⟨(i 0).val / 2000, by have h : (i 0).val < 50000 := (i 0).isLt; show (i 0).val / 2000 < 25; omega⟩, rfl⟩

/-- After the last point the first result array holds the projection by the first weights. -/
theorem result0 (c : Dev nD) : (dat0 V c).arrAt 3 cfg0.N = proj (V c main_arg0) (V c main_arg2) :=
  (dat0 V c).arrAt_eq_of_cover 3 (proj (V c main_arg0) (V c main_arg2)) (fun t _ => written0 V c t) fun i => by
    obtain ⟨t, ht⟩ := rowCovered i
    obtain ⟨-, -, -, -, -, -, e30, e31, -⟩ := blockIdx t
    refine ⟨t, flush0_3 t, ?_⟩
    show i ∈ ((View.whole main_v0_0).slice (win0_3.rect t)).set
    rw [View.set_slice_whole, Rect.mem_set_unit]
    have h0 : (i 0).val < 50000 := (i 0).isLt
    have h1 : (i 1).val < 256 := (i 1).isLt
    intro a
    match a with
    | ⟨0, _⟩ => show win0_3.index t (0 : Fin 2) * 2000 ≤ (i 0).val ∧ (i 0).val < win0_3.index t (0 : Fin 2) * 2000 + 2000; omega
    | ⟨1, _⟩ => show win0_3.index t (1 : Fin 2) * 256 ≤ (i 1).val ∧ (i 1).val < win0_3.index t (1 : Fin 2) * 256 + 256; omega

/-- And the second result array the projection by the second weights. -/
theorem result1 (c : Dev nD) : (dat0 V c).arrAt 4 cfg0.N = proj (V c main_arg0) (V c main_arg3) :=
  (dat0 V c).arrAt_eq_of_cover 4 (proj (V c main_arg0) (V c main_arg3)) (fun t _ => written1 V c t) fun i => by
    obtain ⟨t, ht⟩ := rowCovered i
    obtain ⟨-, -, -, -, -, -, -, -, e40, e41⟩ := blockIdx t
    refine ⟨t, flush0_4 t, ?_⟩
    show i ∈ ((View.whole main_v0_1).slice (win0_4.rect t)).set
    rw [View.set_slice_whole, Rect.mem_set_unit]
    have h0 : (i 0).val < 50000 := (i 0).isLt
    have h1 : (i 1).val < 256 := (i 1).isLt
    intro a
    match a with
    | ⟨0, _⟩ => show win0_4.index t (0 : Fin 2) * 2000 ≤ (i 0).val ∧ (i 0).val < win0_4.index t (0 : Fin 2) * 2000 + 2000; omega
    | ⟨1, _⟩ => show win0_4.index t (1 : Fin 2) * 256 ≤ (i 1).val ∧ (i 1).val < win0_4.index t (1 : Fin 2) * 256 + 256; omega

end Cert.GraphConv.First

end
-- ==== Proof.Activation.lean ====
/-
  The layer's last step, read at an index.

  A node's own projection and the sum its neighbours send it are added, and what is negative is replaced by zero:
  entry by entry the result is  max(a + b, 0). The host states the zero as a scalar constant spread over the whole
  array; the kernel, one block of rows at a time, as a scalar spread over the block, after two changes of shape that
  change nothing. Both are the same entrywise function.
-/
import Idealize.ShloMosaic.PureOps.Ideal
import Idealize.ShloMosaic.Lib.Pipeline.Value
import Idealize.ShloMosaic.Lib.ValueIdx

noncomputable section

namespace Cert.GraphConv

open Idealize.ShloMosaic Idealize.ShloMosaic.ValueIdx

/-- max(a + b, 0), entry by entry, over any index set. -/
def activate {ι : Type} (A B : ι → EReal) : ι → EReal :=
  fun i => FloatOps.maximumf (F := Ideal) (φ := .f32) (FloatOps.addf (F := Ideal) (φ := .f32) (A i) (B i))
    (FloatOps.ofBits (F := Ideal) .f32 0x00000000#32)

/-- The host's form: the zero a scalar constant laid over the array. -/
theorem hostActivation_eq {s : Shape} (A B : FVec Ideal s .f32)
    (h : (⟨0, ![]⟩ : Shape).BroadcastsInDim s (![] : Fin 0 → Fin s.rank)) :
    maximumf (addf A B) (broadcastInDim s ![] h (constant (F := Ideal) ⟨0, ![]⟩ .f32 0x00000000#32)) = activate A B := by
  funext i
  show FloatOps.maximumf (FloatOps.addf (A i) (B i))
    (broadcastInDim s ![] h (constant (F := Ideal) ⟨0, ![]⟩ .f32 0x00000000#32) i) = _
  exact congrArg (FloatOps.maximumf (FloatOps.addf (A i) (B i)))
    (broadcastInDim_apply (![] : Fin 0 → Fin s.rank) h (constant (F := Ideal) ⟨0, ![]⟩ .f32 0x00000000#32) i
      (fun a => a.elim0) (fun a => a.elim0))

/-- The kernel's form on a block: the operands recast to their own shape, the zero a scalar spread over the block. -/
theorem tileActivation_eq {s : Shape} (x y : FVec Ideal s .f32) (h : s.ShapeCasts s) :
    maximumf (addf (shapeCast s x h) (shapeCast s y h)) (broadcast s (Scalar.ofBits (F := Ideal) .f32 0x00000000#32))
      = activate x y := by
  rw [shapeCast_self, shapeCast_self]
  rfl

end Cert.GraphConv

end
-- ==== Proof.SecondRegion.lean ====
/-
  What the second kernel region leaves in its result array.

  The region walks 25 grid points; at point t it reads rows 2000·t … 2000·t + 1999 of its two input arrays (the nodes'
  own projection, and the sums their neighbours send) and writes back, into the same rows of the result,  max(a + b, 0)
  of the two blocks entry by entry. An entry of block t at (r, q) is the arrays' entry at (2000·t + r, q) in all three
  windows, and every row lies in the block of the point  row / 2000: after the last point the result array holds
  max(a + b, 0) of the two whole input arrays.
-/
import proofs.«176077_j2259152797811_1_alg».proof.Proof.Gen.KernelIdeal.Frame
import proofs.«176077_j2259152797811_1_alg».proof.Proof.Activation
import Idealize.ShloMosaic.Lib.Pipeline.Value

set_option maxRecDepth 16384

noncomputable section

namespace Cert.GraphConv.Second

open Cert.KernelIdeal Cert.KernelIdeal.Gen
open Idealize.ShloMosaic Idealize.ShloMosaic.TcCoe Idealize.SL.Sem Idealize.ShloMosaic.ValueIdx
open Idealize.ShloMosaic.Pipeline (Dat)
open Cert.GraphConv

-- the buffer contents the region is entered from
variable (V : (c : Dev nD) → (b : Ref sig .tc) → Buf (Elt Ideal) ((c : Thread nD τ).loc b))

theorem hz : (![0, 0] : Fin 2 → Nat) = fun _ => 0 := funext fun a => by fin_cases a <;> rfl

/-- What the body stores: max(a + b, 0) of its two loaded blocks. -/
theorem stored_eq (x y : Vec Ideal S2000x256 .f32) : k1_pay1 (F := Ideal) x y = activate x y := by
  unfold k1_pay1
  exact tileActivation_eq x y shapeCasts_S2000x256_S2000x256

/-- The block indices, decided over the grid: all three windows move one block of rows per point. -/
theorem blockIdx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of max(a + b, 0) of the two input arrays. -/
theorem written (c : Dev nD) (t : Fin cfg1.N) :
    (dat1 V c).flushed 2 t = ((cfg1.win 2).blk t).view.read (Elt Ideal)
      (activate (V c main_v0_0 : S50000x256.Idx → EReal) (V c main_v14 : S50000x256.Idx → EReal)) := by
  show (cfg1.win 2).cut (grid1.coords t) ((dat1 V c).after 2 t) = _
  rw [after1_2]
  unfold out1_2
  rw [View.canon_unit_zero hz]
  simp only [View.ld_unit_zero (S := S2000x256) hz]
  obtain ⟨e00, e01, e10, e11, e20, e21⟩ := blockIdx t
  funext j
  show k1_pay1 (F := Ideal) (iblk1 V c 0 t) (iblk1 V c 1 t) j
    = activate (V c main_v0_0 : S50000x256.Idx → EReal) (V c main_v14 : S50000x256.Idx → EReal) (((cfg1.win 2).blk t).view.emb j)
  rw [stored_eq]
  have h0 : (iblk1 V c 0 t : Vec Ideal S2000x256 .f32) j
      = (V c main_v0_0 : S50000x256.Idx → EReal) (((cfg1.win 2).blk t).view.emb j) := by
    show (V c main_v0_0 : S50000x256.Idx → EReal) (((cfg1.win 0).blk t).view.emb j) = _
    refine congrArg (V c main_v0_0 : S50000x256.Idx → EReal) ?_
    funext a
    apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 256 + 1 * (j 1).val = win1_2.index t (1 : Fin 2) * 256 + 1 * (j 1).val; omega
  have h1 : (iblk1 V c 1 t : Vec Ideal S2000x256 .f32) j
      = (V c main_v14 : S50000x256.Idx → EReal) (((cfg1.win 2).blk t).view.emb j) := by
    show (V c main_v14 : S50000x256.Idx → EReal) (((cfg1.win 1).blk t).view.emb j) = _
    refine congrArg (V c main_v14 : S50000x256.Idx → EReal) ?_
    funext a
    apply Fin.ext
    match a with
    | ⟨0, _⟩ => show win1_1.index t (0 : Fin 2) * 2000 + 1 * (j 0).val = win1_2.index t (0 : Fin 2) * 2000 + 1 * (j 0).val; omega
    | ⟨1, _⟩ => show win1_1.index t (1 : Fin 2) * 256 + 1 * (j 1).val = win1_2.index t (1 : Fin 2) * 256 + 1 * (j 1).val; omega
  unfold activate
  exact congrArg₂ (fun a b => FloatOps.maximumf (F := Ideal) (φ := .f32) (FloatOps.addf (F := Ideal) (φ := .f32) a b)
    (FloatOps.ofBits (F := Ideal) .f32 0x00000000#32)) h0 h1

/-- After the last point the result array holds max(a + b, 0) of the two input arrays. -/
theorem result (c : Dev nD) :
    (dat1 V c).arrAt 2 cfg1.N = activate (V c main_v0_0 : S50000x256.Idx → EReal) (V c main_v14 : S50000x256.Idx → EReal) :=
  (dat1 V c).arrAt_eq_of_cover 2 _ (fun t _ => written V c t) fun i => by
    have h0 : (i 0).val < 50000 := (i 0).isLt
    have h1 : (i 1).val < 256 := (i 1).isLt
    let t : Fin cfg1.N := ⟨(i 0).val / 2000, by show (i 0).val / 2000 < 25; omega⟩
    have ht : t.val = (i 0).val / 2000 := rfl
    obtain ⟨-, -, -, -, e20, e21⟩ := blockIdx t
    refine ⟨t, flush1_2 t, ?_⟩
    show i ∈ ((View.whole main_v15).slice (win1_2.rect t)).set
    rw [View.set_slice_whole, Rect.mem_set_unit]
    intro a
    match a with
    | ⟨0, _⟩ => show win1_2.index t (0 : Fin 2) * 2000 ≤ (i 0).val ∧ (i 0).val < win1_2.index t (0 : Fin 2) * 2000 + 2000; omega
    | ⟨1, _⟩ => show win1_2.index t (1 : Fin 2) * 256 ≤ (i 1).val ∧ (i 1).val < win1_2.index t (1 : Fin 2) * 256 + 256; omega

end Cert.GraphConv.Second

end
-- ==== Proof.Messages.lean ====
/-
  The message-passing step of the layer, as one function.

  Every node receives, from each edge that ends in it, the projected features of the edge's source node, and adds them
  up. On both programs this is the same chain of host operations on the edge list and on the array of projected
  features; it is named here once and never opened: the two programs agree on it as soon as they agree on its operands.
-/
import proofs.«176077_j2259152797811_1_alg».proof.Proof.Gen.KernelIdeal

noncomputable section

namespace Cert.GraphConv

open Cert.KernelIdeal Cert.KernelIdeal.Gen Idealize.ShloMosaic

/-- The neighbours' messages summed per destination node: from the edge list E (row 0 the destinations, row 1 the
    sources) and an array P of one row per node, the array whose row d is the sum of the rows P(s) over the edges
    (d, s), a negative node number counted from the end. -/
def neighbourSum {F : FTy → Type} [FloatOps F] (P : FVec F S50000x256 .f32) (E : IVec S2x800000 32) : FVec F S50000x256 .f32 :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0
      (shapeCast _ (extractStridedSlice S1x800000 ![0, 0] E slices_S2x800000_S1x800000_0_0) shapeCasts_S1x800000_S800000))
    (Host.gather gather_S50000x256_S800000x1_S800000x256_1_0_n_n_0_1_1256 P
      (broadcastInDim S800000x1 ![0] bcast_S800000_S800000x1_0
        (select
          (cmpi .slt (shapeCast _ (extractStridedSlice S1x800000 ![1, 0] E slices_S2x800000_S1x800000_1_0) shapeCasts_S1x800000_S800000)
            (broadcastInDim S800000 ![] bcast_S_S800000 (constantI S_ 32 0#32)))
          (addi (shapeCast _ (extractStridedSlice S1x800000 ![1, 0] E slices_S2x800000_S1x800000_1_0) shapeCasts_S1x800000_S800000)
            (broadcastInDim S800000 ![] bcast_S_S800000 (constantI S_ 32 50000#32)))
          (shapeCast _ (extractStridedSlice S1x800000 ![1, 0] E slices_S2x800000_S1x800000_1_0) shapeCasts_S1x800000_S800000))))

end Cert.GraphConv

end
-- ==== Proof.KernelValue.lean ====
/-
  The kernel program's result, as one function of its four arguments.

  Between the two kernel regions the program runs on the host what every graph layer runs: the edge list's two rows are
  taken apart, a negative node number is moved up by the number of nodes, the second projection's rows are gathered at
  the source nodes and added up into the rows of the destination nodes, starting from zero (`neighbourSum`). That chain
  is carried as one function of the second projection and the edge list and is never opened.

  Reading the run's last boundary backwards: the result array is what the second region leaves, max(a + b, 0) of the
  first projection (untouched by the host chain, so still what the first region left) and of the chain's result; the
  chain's operands are the first region's second result and the edge list as launched; and the first region's two
  results are the projections of the features by the two weight matrices.
-/
import proofs.«176077_j2259152797811_1_alg».proof.Proof.FirstRegion
import proofs.«176077_j2259152797811_1_alg».proof.Proof.SecondRegion
import proofs.«176077_j2259152797811_1_alg».proof.Proof.Messages
import Idealize.ShloMosaic.Lib.StableHlo.Run

set_option maxRecDepth 16384

noncomputable section

namespace Cert.GraphConv

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The host chain writes none of the first region's first result: the second region finds it as the first left it. -/
theorem ownProjection_kept (c : Dev nD) :
    V2 m ρ c main_v0_0 = proj (m ((c : Thread nD τ).loc main_arg0)) (m ((c : Thread nD τ).loc main_arg2)) :=
  calc W2 m ρ c (Proc.devRef .tc main_v0_0)
    _ = W1 m ρ c (Proc.devRef .tc main_v0_0) := StableHlo.after_of_forall_not_mem (b := Proc.devRef .tc main_v0_0) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = (dat0 (V0 m ρ) c).arrAt 3 cfg0.N := W1_arr m ρ c 3
    _ = proj (m ((c : Thread nD τ).loc main_arg0)) (m ((c : Thread nD τ).loc main_arg2)) := First.result0 (V0 m ρ) c

/-- The second region's other input is the neighbours' sum of the second projection over the launched edge list. -/
theorem neighbours_at_entry (c : Dev nD) :
    V2 m ρ c main_v14
      = neighbourSum (F := Ideal) (proj (m ((c : Thread nD τ).loc main_arg0)) (m ((c : Thread nD τ).loc main_arg3))) (m ((c : Thread nD τ).loc main_arg1)) := by
  have hP : W1 m ρ c (Proc.devRef .tc main_v0_1) = proj (m ((c : Thread nD τ).loc main_arg0)) (m ((c : Thread nD τ).loc main_arg3)) :=
    (W1_arr m ρ c 4).trans (First.result1 (V0 m ρ) c)
  have hE : W1 m ρ c (Proc.devRef .tc main_arg1) = m ((c : Thread nD τ).loc main_arg1) := W1_of_ne m ρ c main_arg1 (by decide)
  show StableHlo.after hostOps1 (W1 m ρ c) (Proc.devRef .tc main_v14) = _
  rw [← hP, ← hE]
  generalize W1 m ρ c = W
  after_results
  rfl

/-- The result array at the run's last boundary: max(a + b, 0) of the first projection and the neighbours' sum of the second. -/
theorem result_at_end (c : Dev nD) :
    W3 m ρ c (Proc.devRef .tc main_v15)
      = activate (proj (m ((c : Thread nD τ).loc main_arg0)) (m ((c : Thread nD τ).loc main_arg2)))
          (neighbourSum (F := Ideal) (proj (m ((c : Thread nD τ).loc main_arg0)) (m ((c : Thread nD τ).loc main_arg3))) (m ((c : Thread nD τ).loc main_arg1))) := by
  refine (W3_arr m ρ c 2).trans ((Second.result (V2 m ρ) c).trans ?_)
  rw [ownProjection_kept m ρ c, neighbours_at_entry m ρ c]

end Cert.GraphConv

end
-- ==== Proof.ReferenceValue.lean ====
/-
  The reference program's result, as the same function of its four arguments.

  The reference multiplies the features by each weight matrix on the host, runs the message-passing chain on the second
  product, adds the first, and replaces what is negative by zero. Its two products are the projections; its chain is,
  operation for operation and record for record, the one named `neighbourSum`; its last two operations are
  max(a + b, 0) entry by entry.
-/
import proofs.«176077_j2259152797811_1_alg».proof.Proof.Gen.ReferenceIdeal.Run
import proofs.«176077_j2259152797811_1_alg».proof.Proof.Messages
import proofs.«176077_j2259152797811_1_alg».proof.Proof.Projection
import proofs.«176077_j2259152797811_1_alg».proof.Proof.Activation

noncomputable section

namespace Cert.GraphConv

open Cert.ReferenceIdeal Cert.ReferenceIdeal.Gen Idealize.ShloMosaic

/-- The reference's contraction is the plain one: rows × shared axis times shared axis × columns. -/
theorem refDims_plain : dot_S50000x256_S256x256_S50000x256_1_0_0_1_n_n = DotDims.plain 50000 256 256 := rfl

/-- The term the reference's run ends at is max(a + b, 0) of the first projection and the neighbours' sum of the second. -/
theorem reference_value (X : FVec Ideal S50000x256 .f32) (E : IVec S2x800000 32) (W0 W1 : FVec Ideal S256x256 .f32) :
    maximumf (addf (Host.dotGeneral dot_S50000x256_S256x256_S50000x256_1_0_0_1_n_n none X W0) (Host.scatterAdd scatter_S50000x256_S800000x1_S800000x256_1_0_0_1 (broadcastInDim S50000x256 ![] bcast_S_S50000x256 (constant S_ .f32 0x00000000#32)) (broadcastInDim S800000x1 ![0] bcast_S800000_S800000x1_0 (shapeCast _ (extractStridedSlice S1x800000 ![0, 0] E slices_S2x800000_S1x800000_0_0) shapeCasts_S1x800000_S800000)) (Host.gather gather_S50000x256_S800000x1_S800000x256_1_0_n_n_0_1_1256 (Host.dotGeneral dot_S50000x256_S256x256_S50000x256_1_0_0_1_n_n none X W1) (broadcastInDim S800000x1 ![0] bcast_S800000_S800000x1_0 (select (cmpi .slt (shapeCast _ (extractStridedSlice S1x800000 ![1, 0] E slices_S2x800000_S1x800000_1_0) shapeCasts_S1x800000_S800000) (broadcastInDim S800000 ![] bcast_S_S800000 (constantI S_ 32 0#32))) (addi (shapeCast _ (extractStridedSlice S1x800000 ![1, 0] E slices_S2x800000_S1x800000_1_0) shapeCasts_S1x800000_S800000) (broadcastInDim S800000 ![] bcast_S_S800000 (constantI S_ 32 50000#32))) (shapeCast _ (extractStridedSlice S1x800000 ![1, 0] E slices_S2x800000_S1x800000_1_0) shapeCasts_S1x800000_S800000)))))) (broadcastInDim S50000x256 ![] bcast_S_S50000x256 (constant S_ .f32 0x00000000#32))
      = activate (proj X W0) (neighbourSum (F := Ideal) (proj X W1) E) := by
  rw [refDims_plain, hostProduct_eq_proj, hostProduct_eq_proj]
  refine (hostActivation_eq _ _ _).trans (congrArg (activate (proj X W0)) ?_)
  rfl

end Cert.GraphConv

end
-- ==== Proof.lean ====
/-
  A graph-convolution layer against its plain reference, over the extended reals.

  Both programs compute, for node features X, an edge list E and two weight matrices W0 and W1,

      max( X·W0 + N(X·W1, E), 0 )   entry by entry,

  where N adds up, into each destination node's row, the rows of its second argument at the edges' source nodes. The
  kernel program forms the two products in one tiled kernel (2000 node rows per grid point, the weights whole), runs N
  on the host exactly as the reference does, and forms the sum and the maximum in a second tiled kernel; the reference
  does all of it on the host.

  The two sides meet in three facts. Each product, block by block, is the sum over the shared axis that the host's
  product is (a change of number format is the identity on the extended reals, and a product accumulated from zero is
  the bare sum), so the 25 blocks written back tile the projection. N is the same function on both sides and is
  never opened: equal operands give equal results. And the last step is the same entrywise function whether the zero
  is spread over a block or over the whole array. No law of arithmetic beyond these is used, so the inputs' finiteness
  is not needed for the values.

  The word-level program's and the idealized program's runs are the generated launch over their two regions and the
  host stretch between them; the reference's run is its generated list of host operations. The idealization rewrote
  no operation, so there is nothing to preserve.
-/
import proofs.«176077_j2259152797811_1_alg».proof.Defs
import proofs.«176077_j2259152797811_1_alg».proof.Proof.Gen.Kernel
import proofs.«176077_j2259152797811_1_alg».proof.Proof.Gen.Kernel.Skeleton
import proofs.«176077_j2259152797811_1_alg».proof.Proof.Gen.Kernel.Launch
import proofs.«176077_j2259152797811_1_alg».proof.Proof.Gen.Kernel.Points
import proofs.«176077_j2259152797811_1_alg».proof.Proof.Gen.Kernel.Frame
import proofs.«176077_j2259152797811_1_alg».proof.Proof.Gen.KernelIdeal
import proofs.«176077_j2259152797811_1_alg».proof.Proof.Gen.KernelIdeal.Skeleton
import proofs.«176077_j2259152797811_1_alg».proof.Proof.Gen.KernelIdeal.Launch
import proofs.«176077_j2259152797811_1_alg».proof.Proof.Gen.KernelIdeal.Points
import proofs.«176077_j2259152797811_1_alg».proof.Proof.Gen.KernelIdeal.Frame
import proofs.«176077_j2259152797811_1_alg».proof.Proof.Gen.ReferenceIdeal
import proofs.«176077_j2259152797811_1_alg».proof.Proof.Gen.ReferenceIdeal.Run
import proofs.«176077_j2259152797811_1_alg».proof.Proof.Gen.Pre_finite_inputs
import Idealize.ShloMosaic.Adequacy
import Idealize.ShloMosaic.Init
import proofs.«176077_j2259152797811_1_alg».proof.Proof.KernelRun
import proofs.«176077_j2259152797811_1_alg».proof.Proof.KernelValue
import proofs.«176077_j2259152797811_1_alg».proof.Proof.ReferenceValue

noncomputable section

namespace Cert.Proof

open Idealize.ShloMosaic Idealize.ShloMosaic.TcCoe Idealize.SL.Sem
open Cert.GraphConv

/-- The word-level kernel program runs to its end without a fault and leaves its arguments as they were. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- And the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the layer's value of those arguments in
    their result arrays: the kernel program by its run read at the last boundary, the reference by its run's term. -/
theorem algebraic : Cert.algebraic_KernelIdeal_ReferenceIdeal := by
  intro m ρ m' ρ' _ hagree
  refine ⟨fun c => activate
      (proj (m ((c.tc : Thread Cert.KernelIdeal.nD Cert.KernelIdeal.τ).loc Cert.KernelIdeal.main_arg0))
        (m ((c.tc : Thread Cert.KernelIdeal.nD Cert.KernelIdeal.τ).loc Cert.KernelIdeal.main_arg2)))
      (neighbourSum (F := Ideal)
        (proj (m ((c.tc : Thread Cert.KernelIdeal.nD Cert.KernelIdeal.τ).loc Cert.KernelIdeal.main_arg0))
          (m ((c.tc : Thread Cert.KernelIdeal.nD Cert.KernelIdeal.τ).loc Cert.KernelIdeal.main_arg3)))
        (m ((c.tc : Thread Cert.KernelIdeal.nD Cert.KernelIdeal.τ).loc Cert.KernelIdeal.main_arg1))), ?_, ?_⟩
  · exact (θ_run Cert.KernelIdeal.defs _ _).mono
      (fun r h c => ⟨(h c).1.trans (result_at_end m ρ c), (h c).2⟩) (Run.run_named (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact reference_value _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
